-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32x256 : Shape := ⟨3, ![2048, 32, 256]⟩
abbrev S2048x80x256 : Shape := ⟨3, ![2048, 80, 256]⟩
abbrev S2048x80 : Shape := ⟨2, ![2048, 80]⟩
abbrev S2048x256 : Shape := ⟨2, ![2048, 256]⟩
abbrev S_ : Shape := ⟨0, ![]⟩

class Facts : Prop where
  bcast_S_S2048x32x256 : S_.BroadcastsInDim S2048x32x256 (![] : Fin 0 → Fin S2048x32x256.rank)
  reducesTo_S2048x32x256_S_d0_1_2 : S2048x32x256.ReducesTo [0, 1, 2] S_
  h_S_ : 0 < S_.numel
  bcast_S_S2048x80x256 : S_.BroadcastsInDim S2048x80x256 (![] : Fin 0 → Fin S2048x80x256.rank)
  reducesTo_S2048x80x256_S_d0_1_2 : S2048x80x256.ReducesTo [0, 1, 2] S_
  bcast_S_S2048x80 : S_.BroadcastsInDim S2048x80 (![] : Fin 0 → Fin S2048x80.rank)
  reducesTo_S2048x80_S_d0_1 : S2048x80.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x80 .f32) (main_arg5 : FVec F S2048x256 .f32) (main_arg6 : FVec F S2048x80 .f32) (main_v13 : IVec S_ 1) (main_v16 : IVec S2048x80 1) : IVec S_ 1 :=
  let main_c_5 : IVec S_ 1 := constantI S_ 1 1#1
  let main_v17 : IVec S_ 1 := (fun x v => Host.reduce IntOp.andi x v reducesTo_S2048x80_S_d0_1 h_S_) main_v16 main_c_5
  let main_v18 : IVec S_ 1 := andi main_v13 main_v17
  let main_v19 : FVec F S2048x80 .f32 := Host.absf main_arg4
  let main_cst_6 : FVec F S_ .f32 := constant S_ .f32 0x7F800000#32
  let main_v20 : FVec F S2048x80 .f32 := broadcastInDim S2048x80 ![] bcast_S_S2048x80 main_cst_6
  let main_v21 : IVec S2048x80 1 := cmpf .olt main_v19 main_v20
  let main_c_7 : IVec S_ 1 := constantI S_ 1 1#1
  let main_v22 : IVec S_ 1 := (fun x v => Host.reduce IntOp.andi x v reducesTo_S2048x80_S_d0_1 h_S_) main_v21 main_c_7
  let main_v23 : IVec S_ 1 := andi main_v18 main_v22
  let main_v24 : FVec F S2048x256 .f32 := Host.absf main_arg5
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  let main_v29 : FVec F S2048x80 .f32 := Host.absf main_arg6
  let main_cst_10 : FVec F S_ .f32 := constant S_ .f32 0x7F800000#32
  let main_v30 : FVec F S2048x80 .f32 := broadcastInDim S2048x80 ![] bcast_S_S2048x80 main_cst_10
  let main_v31 : IVec S2048x80 1 := cmpf .olt main_v29 main_v30
  let main_c_11 : IVec S_ 1 := constantI S_ 1 1#1
  let main_v32 : IVec S_ 1 := (fun x v => Host.reduce IntOp.andi x v reducesTo_S2048x80_S_d0_1 h_S_) main_v31 main_c_11
  let main_v33 : IVec S_ 1 := andi main_v28 main_v32
  main_v33

def fn {F : FTy → Type} [FloatOps F] (main_arg0 : FVec F S2048x32x256 .f32) (main_arg1 : FVec F S2048x80x256 .f32) (main_arg2 : FVec F S2048x80 .f32) (main_arg3 : FVec F S2048x80 .f32) (main_arg4 : FVec F S2048x80 .f32) (main_arg5 : FVec F S2048x256 .f32) (main_arg6 : FVec F S2048x80 .f32) : IVec S_ 1 :=
  let main_v0 : FVec F S2048x32x256 .f32 := Host.absf main_arg0
  let main_cst : FVec F S_ .f32 := constant S_ .f32 0x7F800000#32
  let main_v1 : FVec F S2048x32x256 .f32 := broadcastInDim S2048x32x256 ![] bcast_S_S2048x32x256 main_cst
  let main_v2 : IVec S2048x32x256 1 := cmpf .olt main_v0 main_v1
  let main_c : IVec S_ 1 := constantI S_ 1 1#1
  let main_v3 : IVec S_ 1 := (fun x v => Host.reduce IntOp.andi x v reducesTo_S2048x32x256_S_d0_1_2 h_S_) main_v2 main_c
  let main_v4 : FVec F S2048x80x256 .f32 := Host.absf main_arg1
  let main_cst_0 : FVec F S_ .f32 := constant S_ .f32 0x7F800000#32
  let main_v5 : FVec F S2048x80x256 .f32 := broadcastInDim S2048x80x256 ![] bcast_S_S2048x80x256 main_cst_0
  let main_v6 : IVec S2048x80x256 1 := cmpf .olt main_v4 main_v5
  let main_c_1 : IVec S_ 1 := constantI S_ 1 1#1
  let main_v7 : IVec S_ 1 := (fun x v => Host.reduce IntOp.andi x v reducesTo_S2048x80x256_S_d0_1_2 h_S_) main_v6 main_c_1
  let main_v8 : IVec S_ 1 := andi main_v3 main_v7
  let main_v9 : FVec F S2048x80 .f32 := Host.absf main_arg2
  let main_cst_2 : FVec F S_ .f32 := constant S_ .f32 0x7F800000#32
  let main_v10 : FVec F S2048x80 .f32 := broadcastInDim S2048x80 ![] bcast_S_S2048x80 main_cst_2
  let main_v11 : IVec S2048x80 1 := cmpf .olt main_v9 main_v10
  let main_c_3 : IVec S_ 1 := constantI S_ 1 1#1
  let main_v12 : IVec S_ 1 := (fun x v => Host.reduce IntOp.andi x v reducesTo_S2048x80_S_d0_1 h_S_) main_v11 main_c_3
  let main_v13 : IVec S_ 1 := andi main_v8 main_v12
  let main_v14 : FVec F S2048x80 .f32 := Host.absf main_arg3
  let main_cst_4 : FVec F S_ .f32 := constant S_ .f32 0x7F800000#32
  let main_v15 : FVec F S2048x80 .f32 := broadcastInDim S2048x80 ![] bcast_S_S2048x80 main_cst_4
  let main_v16 : IVec S2048x80 1 := cmpf .olt main_v14 main_v15
  fn_part1 (F := F) main_arg4 main_arg5 main_arg6 main_v13 main_v16
-- ==== Kernel.lean ====
abbrev S2048x32x256 : Shape := ⟨3, ![2048, 32, 256]⟩
abbrev S2048x80x256 : Shape := ⟨3, ![2048, 80, 256]⟩
abbrev S2048x80 : Shape := ⟨2, ![2048, 80]⟩
abbrev S2048x256 : Shape := ⟨2, ![2048, 256]⟩
abbrev S2048x32x80 : Shape := ⟨3, ![2048, 32, 80]⟩
abbrev S64x32x256 : Shape := ⟨3, ![64, 32, 256]⟩
abbrev S64x80x256 : Shape := ⟨3, ![64, 80, 256]⟩
abbrev S64x80 : Shape := ⟨2, ![64, 80]⟩
abbrev S64x256 : Shape := ⟨2, ![64, 256]⟩
abbrev S64x32x80 : Shape := ⟨3, ![64, 32, 80]⟩
abbrev S64x1x256 : Shape := ⟨3, ![64, 1, 256]⟩
abbrev S64x1x80 : Shape := ⟨3, ![64, 1, 80]⟩

abbrev nBuf : Space → Nat
  | .hbm => 8
  | .vmem => 16
  | .smem => 0
  | _ => 0

abbrev bufTy : (tb : Table) → Fin (tcTables nBuf tb) → BufTy
  | .hbm, ⟨0, _⟩ => ⟨S2048x32x256, .f32⟩
  | .hbm, ⟨1, _⟩ => ⟨S2048x80x256, .f32⟩
  | .hbm, ⟨2, _⟩ => ⟨S2048x80, .f32⟩
  | .hbm, ⟨3, _⟩ => ⟨S2048x80, .f32⟩
  | .hbm, ⟨4, _⟩ => ⟨S2048x80, .f32⟩
  | .hbm, ⟨5, _⟩ => ⟨S2048x256, .f32⟩
  | .hbm, ⟨6, _⟩ => ⟨S2048x80, .f32⟩
  | .hbm, ⟨7, _⟩ => ⟨S2048x32x80, .f32⟩
  | .local _ .vmem, ⟨0, _⟩ => ⟨S64x32x256, .f32⟩
  | .local _ .vmem, ⟨1, _⟩ => ⟨S64x32x256, .f32⟩
  | .local _ .vmem, ⟨2, _⟩ => ⟨S64x80x256, .f32⟩
  | .local _ .vmem, ⟨3, _⟩ => ⟨S64x80x256, .f32⟩
  | .local _ .vmem, ⟨4, _⟩ => ⟨S64x80, .f32⟩
  | .local _ .vmem, ⟨5, _⟩ => ⟨S64x80, .f32⟩
  | .local _ .vmem, ⟨6, _⟩ => ⟨S64x80, .f32⟩
  | .local _ .vmem, ⟨7, _⟩ => ⟨S64x80, .f32⟩
  | .local _ .vmem, ⟨8, _⟩ => ⟨S64x80, .f32⟩
  | .local _ .vmem, ⟨9, _⟩ => ⟨S64x80, .f32⟩
  | .local _ .vmem, ⟨10, _⟩ => ⟨S64x256, .f32⟩
  | .local _ .vmem, ⟨11, _⟩ => ⟨S64x256, .f32⟩
  | .local _ .vmem, ⟨12, _⟩ => ⟨S64x80, .f32⟩
  | .local _ .vmem, ⟨13, _⟩ => ⟨S64x80, .f32⟩
  | .local _ .vmem, ⟨14, _⟩ => ⟨S64x32x80, .f32⟩
  | .local _ .vmem, ⟨15, _⟩ => ⟨S64x32x80, .f32⟩
  | _, _ => ⟨S2048x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x80x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x80 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x80 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x80 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x32x80 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S64x32x256_S64x32x256_0_0_0 : ∀ a, (![0, 0, 0] : Fin 3 → Nat) a + S64x32x256.size a ≤ S64x32x256.size a
  h_S64x32x256 : 0 < S64x32x256.numel
  inb_S64x256_S64x256_0_0 : ∀ a, (![0, 0] : Fin 2 → Nat) a + S64x256.size a ≤ S64x256.size a
  h_S64x256 : 0 < S64x256.numel
  shapeCasts_S64x256_S64x1x256 : S64x256.ShapeCasts S64x1x256
  broadcasts_S64x1x256_S64x32x256 : S64x1x256.Broadcasts S64x32x256
  bitsLt_bf16_f32 : FTy.bits .bf16 < FTy.bits .f32
  inb_S64x80x256_S64x80x256_0_0_0 : ∀ a, (![0, 0, 0] : Fin 3 → Nat) a + S64x80x256.size a ≤ S64x80x256.size a
  h_S64x80x256 : 0 < S64x80x256.numel
  inb_S64x80_S64x80_0_0 : ∀ a, (![0, 0] : Fin 2 → Nat) a + S64x80.size a ≤ S64x80.size a
  h_S64x80 : 0 < S64x80.numel
  shapeCasts_S64x80_S64x1x80 : S64x80.ShapeCasts S64x1x80
  broadcasts_S64x1x80_S64x32x80 : S64x1x80.Broadcasts S64x32x80
  reduces_S64x32x80_S64x80 : S64x32x80.Reduces [1] S64x80
  inb_S64x32x80_S64x32x80_0_0_0 : ∀ a, (![0, 0, 0] : Fin 3 → Nat) a + S64x32x80.size a ≤ S64x32x80.size a
  h_S64x32x80 : 0 < S64x32x80.numel
  dot_S64x32x256_S64x80x256_S64x32x80_2_2_1_1_0_0_wf : DotDims.WF S64x32x256 S64x80x256 S64x32x80 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32x256.size a ≤ S2048x32x256.size a
  hwx0_0 : ∀ i : grid0.Coords, EltTy.bits .f32 = 32 ∨ (Rect.block (s := S2048x32x256) S64x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x80x256.size a ≤ S2048x80x256.size a
  hwx0_1 : ∀ i : grid0.Coords, EltTy.bits .f32 = 32 ∨ (Rect.block (s := S2048x80x256) S64x80x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x80.size a ≤ S2048x80.size a
  hwx0_2 : ∀ i : grid0.Coords, EltTy.bits .f32 = 32 ∨ (Rect.block (s := S2048x80) S64x80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x80.size a ≤ S2048x80.size a
  hwx0_3 : ∀ i : grid0.Coords, EltTy.bits .f32 = 32 ∨ (Rect.block (s := S2048x80) S64x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x80.size a ≤ S2048x80.size a
  hwx0_4 : ∀ i : grid0.Coords, EltTy.bits .f32 = 32 ∨ (Rect.block (s := S2048x80) S64x80.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S2048x256.size a
  hwx0_5 : ∀ i : grid0.Coords, EltTy.bits .f32 = 32 ∨ (Rect.block (s := S2048x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x80.size a ≤ S2048x80.size a
  hwx0_6 : ∀ i : grid0.Coords, EltTy.bits .f32 = 32 ∨ (Rect.block (s := S2048x80) S64x80.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x32x80.size a ≤ S2048x32x80.size a
  hwx0_7 : ∀ i : grid0.Coords, EltTy.bits .f32 = 32 ∨ (Rect.block (s := S2048x32x80) S64x32x80.size (cc0_transform_7 i) (hinb0_7 i)).WholeWords (EltTy.packing .f32)

variable [Facts₀]

def dot_S64x32x256_S64x80x256_S64x32x80_2_2_1_1_0_0 : DotDims S64x32x256 S64x80x256 S64x32x80 where
  lhsContracting := [2]
  rhsContracting := [2]
  lhsNonContracting := [1]
  rhsNonContracting := [1]
  lhsBatch := [0]
  rhsBatch := [0]
  wf := dot_S64x32x256_S64x80x256_S64x32x80_2_2_1_1_0_0_wf

abbrev win0_0 : Pipeline.Window sig grid0 :=
  Pipeline.Window.ofSpec (Memref.whole main_arg0) S64x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x80x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x80.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x80.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x80.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S64x32x80.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x32x256 : Shape := ⟨3, ![2048, 32, 256]⟩
abbrev S2048x80x256 : Shape := ⟨3, ![2048, 80, 256]⟩
abbrev S2048x80 : Shape := ⟨2, ![2048, 80]⟩
abbrev S2048x256 : Shape := ⟨2, ![2048, 256]⟩
abbrev S2048x1x256 : Shape := ⟨3, ![2048, 1, 256]⟩
abbrev S2048x32x80 : Shape := ⟨3, ![2048, 32, 80]⟩
abbrev S2048x1x80 : Shape := ⟨3, ![2048, 1, 80]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S2048x32x256, .f32⟩
  | .hbm, ⟨1, _⟩ => ⟨S2048x80x256, .f32⟩
  | .hbm, ⟨2, _⟩ => ⟨S2048x80, .f32⟩
  | .hbm, ⟨3, _⟩ => ⟨S2048x80, .f32⟩
  | .hbm, ⟨4, _⟩ => ⟨S2048x80, .f32⟩
  | .hbm, ⟨5, _⟩ => ⟨S2048x256, .f32⟩
  | .hbm, ⟨6, _⟩ => ⟨S2048x80, .f32⟩
  | .hbm, ⟨7, _⟩ => ⟨S2048x1x256, .f32⟩
  | .hbm, ⟨8, _⟩ => ⟨S2048x32x256, .f32⟩
  | .hbm, ⟨9, _⟩ => ⟨S2048x32x256, .f32⟩
  | .hbm, ⟨10, _⟩ => ⟨S2048x32x80, .f32⟩
  | .hbm, ⟨11, _⟩ => ⟨S2048x1x80, .f32⟩
  | .hbm, ⟨12, _⟩ => ⟨S2048x32x80, .f32⟩
  | .hbm, ⟨13, _⟩ => ⟨S2048x32x80, .f32⟩
  | .hbm, ⟨14, _⟩ => ⟨S2048x32x80, .f32⟩
  | .hbm, ⟨15, _⟩ => ⟨S_, .f32⟩
  | .hbm, ⟨16, _⟩ => ⟨S2048x80, .f32⟩
  | .hbm, ⟨17, _⟩ => ⟨S2048x1x80, .f32⟩
  | .hbm, ⟨18, _⟩ => ⟨S_, .f32⟩
  | .hbm, ⟨19, _⟩ => ⟨S2048x1x80, .f32⟩
  | .hbm, ⟨20, _⟩ => ⟨S2048x1x80, .f32⟩
  | .hbm, ⟨21, _⟩ => ⟨S2048x32x80, .f32⟩
  | .hbm, ⟨22, _⟩ => ⟨S2048x32x80, .f32⟩
  | .hbm, ⟨23, _⟩ => ⟨S2048x32x80, .f32⟩
  | .hbm, ⟨24, _⟩ => ⟨S_, .f32⟩
  | .hbm, ⟨25, _⟩ => ⟨S2048x80, .f32⟩
  | .hbm, ⟨26, _⟩ => ⟨S2048x1x80, .f32⟩
  | .hbm, ⟨27, _⟩ => ⟨S_, .f32⟩
  | .hbm, ⟨28, _⟩ => ⟨S2048x1x80, .f32⟩
  | .hbm, ⟨29, _⟩ => ⟨S2048x1x80, .f32⟩
  | .hbm, ⟨30, _⟩ => ⟨S2048x32x80, .f32⟩
  | .hbm, ⟨31, _⟩ => ⟨S2048x32x80, .f32⟩
  | .hbm, ⟨32, _⟩ => ⟨S_, .f32⟩
  | .hbm, ⟨33, _⟩ => ⟨S2048x1x80, .f32⟩
  | .hbm, ⟨34, _⟩ => ⟨S2048x1x80, .f32⟩
  | .hbm, ⟨35, _⟩ => ⟨S2048x1x80, .f32⟩
  | .hbm, ⟨36, _⟩ => ⟨S2048x32x80, .f32⟩
  | .hbm, ⟨37, _⟩ => ⟨S2048x32x80, .f32⟩
  | .hbm, ⟨38, _⟩ => ⟨S2048x1x80, .f32⟩
  | .hbm, ⟨39, _⟩ => ⟨S2048x32x80, .f32⟩
  | .hbm, ⟨40, _⟩ => ⟨S2048x32x80, .f32⟩
  | .hbm, ⟨41, _⟩ => ⟨S2048x1x80, .f32⟩
  | .hbm, ⟨42, _⟩ => ⟨S2048x32x80, .f32⟩
  | .hbm, ⟨43, _⟩ => ⟨S2048x32x80, .f32⟩
  | .hbm, ⟨44, _⟩ => ⟨S2048x1x80, .f32⟩
  | .hbm, ⟨45, _⟩ => ⟨S2048x32x80, .f32⟩
  | .hbm, ⟨46, _⟩ => ⟨S2048x32x80, .f32⟩
  | _, _ => ⟨S2048x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S2048x256_S2048x1x256_0_2 : S2048x256.BroadcastsInDim S2048x1x256 (![0, 2] : Fin 2 → Fin S2048x1x256.rank)
  bcast_S2048x1x256_S2048x32x256_0_1_2 : S2048x1x256.BroadcastsInDim S2048x32x256 (![0, 1, 2] : Fin 3 → Fin S2048x32x256.rank)
  bcast_S2048x80_S2048x1x80_0_2 : S2048x80.BroadcastsInDim S2048x1x80 (![0, 2] : Fin 2 → Fin S2048x1x80.rank)
  bcast_S2048x1x80_S2048x32x80_0_1_2 : S2048x1x80.BroadcastsInDim S2048x32x80 (![0, 1, 2] : Fin 3 → Fin S2048x32x80.rank)
  reducesTo_S2048x32x80_S2048x80_d1 : S2048x32x80.ReducesTo [1] S2048x80
  h_S_ : 0 < S_.numel
  bcast_S_S2048x1x80 : S_.BroadcastsInDim S2048x1x80 (![] : Fin 0 → Fin S2048x1x80.rank)
  dot_S2048x32x256_S2048x80x256_S2048x32x80_2_2_1_1_0_0_wf : DotDims.WF S2048x32x256 S2048x80x256 S2048x32x80 [2] [2] [1] [1] [0] [0]

variable [Facts₀]

def dot_S2048x32x256_S2048x80x256_S2048x32x80_2_2_1_1_0_0 : DotDims S2048x32x256 S2048x80x256 S2048x32x80 where
  lhsContracting := [2]
  rhsContracting := [2]
  lhsNonContracting := [1]
  rhsNonContracting := [1]
  lhsBatch := [0]
  rhsBatch := [0]
  wf := dot_S2048x32x256_S2048x80x256_S2048x32x80_2_2_1_1_0_0_wf

class Facts : Prop extends Facts₀ where

variable [Facts]
-- ==== Proof.Cell.lean ====
/-
  One subsystem of the network, as a function on the extended reals.

  A subsystem `s` owns a batch of 32 gathered input rows `x r` (256 features each), an input mask `im` over the
  features, a weight matrix `w o` (80 outputs by 256 features), a bias `b`, the batch-norm scale `g` and shift `be`,
  and an output mask `om`. Its result at batch row `r` and output feature `o` is

      ( (h r o - mean o) * rsqrt (var o + eps) * g o + be o ) * om o

  where `h r o = tanh (sum_k (x r k * im k) * w o k + b o)`, `mean o` is the sum of `h r o` over the 32 rows divided by
  32, and `var o` the sum of the squared deviations divided by 32 (the biased variance). Nothing couples two subsystems:
  the whole result array is this function applied, subsystem by subsystem, to the slices of the argument arrays.
-/
import Idealize.ShloMosaic.PureOps.Ideal
import Idealize.ShloMosaic.Lib.ValueIdx

noncomputable section

namespace Cert.DCell

open Idealize.ShloMosaic Idealize.ShloMosaic.ValueIdx

/-- The batch size, 32, as the f32 word both programs divide by. -/
abbrev batch : EReal := Ideal.ofBits .f32 0x42000000#32
/-- The variance offset, the f32 nearest 1e-5, as the word both programs add. -/
abbrev eps : EReal := Ideal.ofBits .f32 0x3727C5AC#32

/-- The activation: the masked input row against output `o`'s weight row, plus the bias, through tanh. -/
def hid (x : Fin 32 → Fin 256 → EReal) (im : Fin 256 → EReal) (w : Fin 80 → Fin 256 → EReal) (b : Fin 80 → EReal)
    (r : Fin 32) (o : Fin 80) : EReal :=
  Ideal.tanh ((∑ k : Fin 256, x r k * im k * w o k) + b o)

/-- The batch mean of feature `o`. -/
def mean (h : Fin 32 → Fin 80 → EReal) (o : Fin 80) : EReal := Ideal.div (∑ r : Fin 32, h r o) batch

/-- Row `r`'s deviation from the batch mean. -/
def dev (h : Fin 32 → Fin 80 → EReal) (r : Fin 32) (o : Fin 80) : EReal := h r o - mean h o

/-- The biased batch variance of feature `o`. -/
def var (h : Fin 32 → Fin 80 → EReal) (o : Fin 80) : EReal := Ideal.div (∑ r : Fin 32, dev h r o * dev h r o) batch

/-- The normalised, scaled and shifted activation, before the output mask. -/
def bn (h : Fin 32 → Fin 80 → EReal) (g be : Fin 80 → EReal) (r : Fin 32) (o : Fin 80) : EReal :=
  dev h r o * Ideal.rsqrt (var h o + eps) * g o + be o

/-- One subsystem's result. -/
def cell (x : Fin 32 → Fin 256 → EReal) (im : Fin 256 → EReal) (w : Fin 80 → Fin 256 → EReal) (b g be om : Fin 80 → EReal)
    (r : Fin 32) (o : Fin 80) : EReal :=
  bn (hid x im w b) g be r o * om o

/-- The whole result: subsystem `s`'s slices of the seven argument arrays through `cell`. -/
def net (X : (⟨3, ![2048, 32, 256]⟩ : Shape).Idx → EReal) (W : (⟨3, ![2048, 80, 256]⟩ : Shape).Idx → EReal)
    (B Ga Be : (⟨2, ![2048, 80]⟩ : Shape).Idx → EReal) (IM : (⟨2, ![2048, 256]⟩ : Shape).Idx → EReal)
    (OM : (⟨2, ![2048, 80]⟩ : Shape).Idx → EReal) (s : Fin 2048) (r : Fin 32) (o : Fin 80) : EReal :=
  cell (fun r k => X (ix3 s r k)) (fun k => IM (ix2 s k)) (fun o k => W (ix3 s o k)) (fun o => B (ix2 s o))
    (fun o => Ga (ix2 s o)) (fun o => Be (ix2 s o)) (fun o => OM (ix2 s o)) r o

/-- The same as one array, index by index. -/
def netArr (X : (⟨3, ![2048, 32, 256]⟩ : Shape).Idx → EReal) (W : (⟨3, ![2048, 80, 256]⟩ : Shape).Idx → EReal)
    (B Ga Be : (⟨2, ![2048, 80]⟩ : Shape).Idx → EReal) (IM : (⟨2, ![2048, 256]⟩ : Shape).Idx → EReal)
    (OM : (⟨2, ![2048, 80]⟩ : Shape).Idx → EReal) : (⟨3, ![2048, 32, 80]⟩ : Shape).Idx → EReal :=
  fun j => net X W B Ga Be IM OM (j 0) (j 1) (j 2)

theorem netArr_ix3 (X : (⟨3, ![2048, 32, 256]⟩ : Shape).Idx → EReal) (W : (⟨3, ![2048, 80, 256]⟩ : Shape).Idx → EReal)
    (B Ga Be : (⟨2, ![2048, 80]⟩ : Shape).Idx → EReal) (IM : (⟨2, ![2048, 256]⟩ : Shape).Idx → EReal)
    (OM : (⟨2, ![2048, 80]⟩ : Shape).Idx → EReal) (s : Fin 2048) (r : Fin 32) (o : Fin 80) :
    netArr X W B Ga Be IM OM (ix3 s r o) = net X W B Ga Be IM OM s r o := rfl

end Cert.DCell

end
-- ==== Proof.KernelCell.lean ====
/-
  What one grid point of the kernel leaves in its output block, read at an index.

  A point holds 64 subsystems. Its body multiplies the input block by the input mask (the mask row repeated over the 32
  batch rows), contracts the result with the weight block over the 256 features, subsystem by subsystem (one matrix product
  with the subsystem as batch axis, into a zero accumulator, so at the exact reals just the sum of the products; the
  narrowing of both operands to bf16 changes nothing there), adds the bias row, applies tanh, and then normalises over the
  32 batch rows: a sum over the middle axis divided by 32 for the mean, the same of the squared deviations for the variance,
  the reciprocal square root of variance plus the offset, scale, shift, and the output mask. Every row vector of length 80
  enters through the same two layout steps: viewed as [64, 1, 80], then repeated to [64, 32, 80].

  Read at (s, r, o) the block is therefore `DCell.cell` of subsystem `s`'s slices of the seven input blocks.
-/
import proofs.«165661_j36953898615444_1_alg».proof.Proof.Gen.KernelIdeal.Skeleton
import proofs.«165661_j36953898615444_1_alg».proof.Proof.Cell
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx Cert.DCell

/-! ## The two layout steps, at an index -/

/-- A [64, 80] array viewed as [64, 1, 80]: same row, same column. -/
theorem cast80 {α : Type} (v : S64x80.Idx → α) (h : S64x80.ShapeCasts S64x1x80) (s : Fin 64) (o : Fin 80) :
    shapeCast S64x1x80 v h (ix3 s (0 : Fin 1) o) = v (ix2 s o) :=
  shapeCast_apply v h (ix3 s (0 : Fin 1) o) (ix2 s o) (by
    rw [Shape.rowMajor_val_two, Shape.rowMajor_val_three]
    show s.val * 80 + o.val = (s.val * 1 + 0) * 80 + o.val
    omega)

/-- A [64, 1, 80] array repeated over 32 rows: the middle coordinate is forgotten. -/
theorem rep80 {α : Type} (u : S64x1x80.Idx → α) (h : S64x1x80.Broadcasts S64x32x80) (s : Fin 64) (r : Fin 32) (o : Fin 80) :
    broadcastTo S64x32x80 u h (ix3 s r o) = u (ix3 s (0 : Fin 1) o) :=
  broadcastTo_apply u h (ix3 s r o) (ix3 s (0 : Fin 1) o) (fun a => match a with
    | ⟨0, _⟩ => by show s.val = (if (64 : Nat) = 1 then 0 else s.val); rw [if_neg (by decide)]
    | ⟨1, _⟩ => by show 0 = (if (1 : Nat) = 1 then 0 else r.val); rw [if_pos rfl]
    | ⟨2, _⟩ => by show o.val = (if (80 : Nat) = 1 then 0 else o.val); rw [if_neg (by decide)])

/-- The same two steps for the mask over the 256 features. -/
theorem cast256 {α : Type} (v : S64x256.Idx → α) (h : S64x256.ShapeCasts S64x1x256) (s : Fin 64) (k : Fin 256) :
    shapeCast S64x1x256 v h (ix3 s (0 : Fin 1) k) = v (ix2 s k) :=
  shapeCast_apply v h (ix3 s (0 : Fin 1) k) (ix2 s k) (by
    rw [Shape.rowMajor_val_two, Shape.rowMajor_val_three]
    show s.val * 256 + k.val = (s.val * 1 + 0) * 256 + k.val
    omega)

theorem rep256 {α : Type} (u : S64x1x256.Idx → α) (h : S64x1x256.Broadcasts S64x32x256) (s : Fin 64) (r : Fin 32) (k : Fin 256) :
    broadcastTo S64x32x256 u h (ix3 s r k) = u (ix3 s (0 : Fin 1) k) :=
  broadcastTo_apply u h (ix3 s r k) (ix3 s (0 : Fin 1) k) (fun a => match a with
    | ⟨0, _⟩ => by show s.val = (if (64 : Nat) = 1 then 0 else s.val); rw [if_neg (by decide)]
    | ⟨1, _⟩ => by show 0 = (if (1 : Nat) = 1 then 0 else r.val); rw [if_pos rfl]
    | ⟨2, _⟩ => by show k.val = (if (256 : Nat) = 1 then 0 else k.val); rw [if_neg (by decide)])

/-! ## The sum over the batch rows -/

/-- The reduction over the middle axis at (s, o) is the sum over the 32 rows of the entries (s, r, o). -/
theorem rowsum (A : FVec Ideal S64x32x80 .f32) (h : S64x32x80.Reduces [1] S64x80) (s : Fin 64) (o : Fin 80) :
    multiReduction (F := Ideal) .add [1] S64x80 A 0x00000000#32 h (.inl rfl) rfl (ix2 s o) = ∑ r : Fin 32, A (ix3 s r o) := by
  refine (Ideal.multiReduction_add_single A 0x00000000#32 h (.inl rfl) rfl (ix2 s o)).trans ?_
  refine Finset.sum_congr rfl fun r _ => congrArg A (funext fun a => Fin.ext ?_)
  match a with
  | ⟨0, _⟩ => rfl
  | ⟨1, _⟩ => rfl
  | ⟨2, _⟩ => rfl

/-! ## The batched matrix product -/

theorem lhs_ax0 (i : S64x32x80.Idx) (q : dot_S64x32x256_S64x80x256_S64x32x80_2_2_1_1_0_0.contr.Idx) :
    (dot_S64x32x256_S64x80x256_S64x32x80_2_2_1_1_0_0.lhsIdx i q 0).val = (i 0).val := by
  unfold DotDims.lhsIdx
  rw [dif_pos (show (0 : Fin S64x32x256.rank) ∈ dot_S64x32x256_S64x80x256_S64x32x80_2_2_1_1_0_0.lhsBatch by decide)]
  rfl
theorem lhs_ax1 (i : S64x32x80.Idx) (q : dot_S64x32x256_S64x80x256_S64x32x80_2_2_1_1_0_0.contr.Idx) :
    (dot_S64x32x256_S64x80x256_S64x32x80_2_2_1_1_0_0.lhsIdx i q 1).val = (i 1).val := by
  unfold DotDims.lhsIdx
  rw [dif_neg (show ¬(1 : Fin S64x32x256.rank) ∈ dot_S64x32x256_S64x80x256_S64x32x80_2_2_1_1_0_0.lhsBatch by decide), dif_pos (show (1 : Fin S64x32x256.rank) ∈ dot_S64x32x256_S64x80x256_S64x32x80_2_2_1_1_0_0.lhsNonContracting by decide)]
  rfl
theorem lhs_ax2 (i : S64x32x80.Idx) (q : dot_S64x32x256_S64x80x256_S64x32x80_2_2_1_1_0_0.contr.Idx) :
    (dot_S64x32x256_S64x80x256_S64x32x80_2_2_1_1_0_0.lhsIdx i q 2).val = (q ⟨0, by decide⟩).val :=
  dot_S64x32x256_S64x80x256_S64x32x80_2_2_1_1_0_0.lhsIdx_val_of_single rfl i q
theorem rhs_ax0 (i : S64x32x80.Idx) (q : dot_S64x32x256_S64x80x256_S64x32x80_2_2_1_1_0_0.contr.Idx) :
    (dot_S64x32x256_S64x80x256_S64x32x80_2_2_1_1_0_0.rhsIdx i q 0).val = (i 0).val := by
  unfold DotDims.rhsIdx
  rw [dif_pos (show (0 : Fin S64x80x256.rank) ∈ dot_S64x32x256_S64x80x256_S64x32x80_2_2_1_1_0_0.rhsBatch by decide)]
  rfl
theorem rhs_ax1 (i : S64x32x80.Idx) (q : dot_S64x32x256_S64x80x256_S64x32x80_2_2_1_1_0_0.contr.Idx) :
    (dot_S64x32x256_S64x80x256_S64x32x80_2_2_1_1_0_0.rhsIdx i q 1).val = (i 2).val := by
  unfold DotDims.rhsIdx
  rw [dif_neg (show ¬(1 : Fin S64x80x256.rank) ∈ dot_S64x32x256_S64x80x256_S64x32x80_2_2_1_1_0_0.rhsBatch by decide), dif_pos (show (1 : Fin S64x80x256.rank) ∈ dot_S64x32x256_S64x80x256_S64x32x80_2_2_1_1_0_0.rhsNonContracting by decide)]
  rfl
theorem rhs_ax2 (i : S64x32x80.Idx) (q : dot_S64x32x256_S64x80x256_S64x32x80_2_2_1_1_0_0.contr.Idx) :
    (dot_S64x32x256_S64x80x256_S64x32x80_2_2_1_1_0_0.rhsIdx i q 2).val = (q ⟨0, by decide⟩).val :=
  dot_S64x32x256_S64x80x256_S64x32x80_2_2_1_1_0_0.rhsIdx_val_of_single rfl i q

/-- Into a zero accumulator, at (s, r, o): row r of subsystem s's left operand against row o of its right operand. -/
theorem mm_apply (L : FVec Ideal S64x32x256 .bf16) (R : FVec Ideal S64x80x256 .bf16) (s : Fin 64) (r : Fin 32) (o : Fin 80) :
    matmul dot_S64x32x256_S64x80x256_S64x32x80_2_2_1_1_0_0 none L R (constant (F := Ideal) S64x32x80 .f32 0x00000000#32) (ix3 s r o)
      = ∑ k : Fin 256, L (ix3 s r k) * R (ix3 s o k) := by
  simp only [matmul]
  rw [Ideal.matmul_constant_zero_apply, ← Equiv.sum_comp (ValueIdx.contrEquiv1 dot_S64x32x256_S64x80x256_S64x32x80_2_2_1_1_0_0 256 rfl rfl).symm]
  refine Finset.sum_congr rfl fun k _ => ?_
  have hk := ValueIdx.contrEquiv1_symm_val dot_S64x32x256_S64x80x256_S64x32x80_2_2_1_1_0_0 256 rfl rfl k
  have el : dot_S64x32x256_S64x80x256_S64x32x80_2_2_1_1_0_0.lhsIdx (ix3 s r o) ((ValueIdx.contrEquiv1 dot_S64x32x256_S64x80x256_S64x32x80_2_2_1_1_0_0 256 rfl rfl).symm k) = ix3 s r k := funext fun a => Fin.ext (by
    match a with
    | ⟨0, _⟩ => exact lhs_ax0 _ _
    | ⟨1, _⟩ => exact lhs_ax1 _ _
    | ⟨2, _⟩ => exact (lhs_ax2 _ _).trans hk)
  have er : dot_S64x32x256_S64x80x256_S64x32x80_2_2_1_1_0_0.rhsIdx (ix3 s r o) ((ValueIdx.contrEquiv1 dot_S64x32x256_S64x80x256_S64x32x80_2_2_1_1_0_0 256 rfl rfl).symm k) = ix3 s o k := funext fun a => Fin.ext (by
    match a with
    | ⟨0, _⟩ => exact rhs_ax0 _ _
    | ⟨1, _⟩ => exact rhs_ax1 _ _
    | ⟨2, _⟩ => exact (rhs_ax2 _ _).trans hk)
  rw [el, er]

/-! ## The body's value in stages -/

/-- The masked input. -/
def masked (P0 : Vec Ideal S64x32x256 .f32) (P1 : Vec Ideal S64x256 .f32) : FVec Ideal S64x32x256 .f32 :=
  mulf P0 (broadcastTo S64x32x256 (shapeCast S64x1x256 P1 shapeCasts_S64x256_S64x1x256) broadcasts_S64x1x256_S64x32x256)

theorem masked_apply (P0 : Vec Ideal S64x32x256 .f32) (P1 : Vec Ideal S64x256 .f32) (s : Fin 64) (r : Fin 32) (k : Fin 256) :
    masked P0 P1 (ix3 s r k) = P0 (ix3 s r k) * P1 (ix2 s k) := by
  show P0 (ix3 s r k) * broadcastTo S64x32x256 (shapeCast S64x1x256 P1 shapeCasts_S64x256_S64x1x256) broadcasts_S64x1x256_S64x32x256 (ix3 s r k) = _
  rw [rep256, cast256]

/-- The activation. -/
def act (P0 : Vec Ideal S64x32x256 .f32) (P1 : Vec Ideal S64x256 .f32) (P2 : Vec Ideal S64x80x256 .f32) (P3 : Vec Ideal S64x80 .f32) : FVec Ideal S64x32x80 .f32 :=
  tanh (addf (matmul dot_S64x32x256_S64x80x256_S64x32x80_2_2_1_1_0_0 none (truncf .bf16 (masked P0 P1) bitsLt_bf16_f32) (truncf .bf16 P2 bitsLt_bf16_f32) (constant S64x32x80 .f32 0x00000000#32))
    (broadcastTo S64x32x80 (shapeCast S64x1x80 P3 shapeCasts_S64x80_S64x1x80) broadcasts_S64x1x80_S64x32x80))

theorem act_apply (P0 : Vec Ideal S64x32x256 .f32) (P1 : Vec Ideal S64x256 .f32) (P2 : Vec Ideal S64x80x256 .f32) (P3 : Vec Ideal S64x80 .f32)
    (s : Fin 64) (r : Fin 32) (o : Fin 80) :
    act P0 P1 P2 P3 (ix3 s r o)
      = hid (fun r k => P0 (ix3 s r k)) (fun k => P1 (ix2 s k)) (fun o k => P2 (ix3 s o k)) (fun o => P3 (ix2 s o)) r o := by
  show Ideal.tanh (matmul dot_S64x32x256_S64x80x256_S64x32x80_2_2_1_1_0_0 none (truncf .bf16 (masked P0 P1) bitsLt_bf16_f32) (truncf .bf16 P2 bitsLt_bf16_f32) (constant (F := Ideal) S64x32x80 .f32 0x00000000#32) (ix3 s r o)
      + broadcastTo S64x32x80 (shapeCast S64x1x80 P3 shapeCasts_S64x80_S64x1x80) broadcasts_S64x1x80_S64x32x80 (ix3 s r o))
    = Ideal.tanh ((∑ k : Fin 256, P0 (ix3 s r k) * P1 (ix2 s k) * P2 (ix3 s o k)) + P3 (ix2 s o))
  rw [mm_apply, rep80, cast80]
  refine congrArg (fun z => Ideal.tanh (z + P3 (ix2 s o))) (Finset.sum_congr rfl fun k _ => ?_)
  show masked P0 P1 (ix3 s r k) * P2 (ix3 s o k) = _
  rw [masked_apply]

/-- A [64, 32, 80] array summed over its rows and divided by 32, kept as [64, 1, 80]: the batch mean, and, of the squared
    deviations, the batch variance. -/
def avg (A : FVec Ideal S64x32x80 .f32) : FVec Ideal S64x1x80 .f32 :=
  divf (shapeCast S64x1x80 (multiReduction .add [1] S64x80 A 0x00000000#32 reduces_S64x32x80_S64x80 (.inl rfl) rfl) shapeCasts_S64x80_S64x1x80)
    (broadcast S64x1x80 (Scalar.ofBits .f32 0x42000000#32))

theorem avg_apply (A : FVec Ideal S64x32x80 .f32) (s : Fin 64) (o : Fin 80) :
    avg A (ix3 s (0 : Fin 1) o) = Ideal.div (∑ r : Fin 32, A (ix3 s r o)) batch := by
  show Ideal.div (shapeCast S64x1x80 (multiReduction (F := Ideal) .add [1] S64x80 A 0x00000000#32 reduces_S64x32x80_S64x80 (.inl rfl) rfl) shapeCasts_S64x80_S64x1x80 (ix3 s (0 : Fin 1) o)) batch = _
  rw [cast80, rowsum]

/-- The deviations from the batch mean. -/
def centred (A : FVec Ideal S64x32x80 .f32) : FVec Ideal S64x32x80 .f32 :=
  subf A (broadcastTo S64x32x80 (avg A) broadcasts_S64x1x80_S64x32x80)

theorem centred_apply (A : FVec Ideal S64x32x80 .f32) (s : Fin 64) (r : Fin 32) (o : Fin 80) :
    centred A (ix3 s r o) = A (ix3 s r o) - Ideal.div (∑ r : Fin 32, A (ix3 s r o)) batch := by
  show A (ix3 s r o) - broadcastTo S64x32x80 (avg A) broadcasts_S64x1x80_S64x32x80 (ix3 s r o) = _
  rw [rep80, avg_apply]

/-- The reciprocal standard deviation, kept as [64, 1, 80]. -/
def invstd (A : FVec Ideal S64x32x80 .f32) : FVec Ideal S64x1x80 .f32 :=
  rsqrt (addf (avg (mulf (centred A) (centred A))) (broadcast S64x1x80 (Scalar.ofBits .f32 0x3727C5AC#32)))

theorem invstd_apply (A : FVec Ideal S64x32x80 .f32) (s : Fin 64) (o : Fin 80) :
    invstd A (ix3 s (0 : Fin 1) o)
      = Ideal.rsqrt (Ideal.div (∑ r : Fin 32, centred A (ix3 s r o) * centred A (ix3 s r o)) batch + eps) := by
  show Ideal.rsqrt (avg (mulf (centred A) (centred A)) (ix3 s (0 : Fin 1) o) + eps) = _
  rw [avg_apply]
  rfl

/-- The payload before the output mask is these stages composed. -/
theorem pay2_stages (P0 : Vec Ideal S64x32x256 .f32) (P1 : Vec Ideal S64x256 .f32) (P2 : Vec Ideal S64x80x256 .f32)
    (P3 P4 P5 : Vec Ideal S64x80 .f32) :
    k0_pay2 P0 P1 P2 P3 P4 P5
      = addf (mulf (mulf (centred (act P0 P1 P2 P3)) (broadcastTo S64x32x80 (invstd (act P0 P1 P2 P3)) broadcasts_S64x1x80_S64x32x80))
            (broadcastTo S64x32x80 (shapeCast S64x1x80 P4 shapeCasts_S64x80_S64x1x80) broadcasts_S64x1x80_S64x32x80))
          (broadcastTo S64x32x80 (shapeCast S64x1x80 P5 shapeCasts_S64x80_S64x1x80) broadcasts_S64x1x80_S64x32x80) := rfl

/-- The payload before the output mask, at (s, r, o): the normalised, scaled and shifted activation of subsystem `s`. -/
theorem pay2_apply (P0 : Vec Ideal S64x32x256 .f32) (P1 : Vec Ideal S64x256 .f32) (P2 : Vec Ideal S64x80x256 .f32)
    (P3 P4 P5 : Vec Ideal S64x80 .f32) (s : Fin 64) (r : Fin 32) (o : Fin 80) :
    k0_pay2 P0 P1 P2 P3 P4 P5 (ix3 s r o)
      = bn (hid (fun r k => P0 (ix3 s r k)) (fun k => P1 (ix2 s k)) (fun o k => P2 (ix3 s o k)) (fun o => P3 (ix2 s o)))
          (fun o => P4 (ix2 s o)) (fun o => P5 (ix2 s o)) r o := by
  rw [pay2_stages]
  show centred (act P0 P1 P2 P3) (ix3 s r o) * broadcastTo S64x32x80 (invstd (act P0 P1 P2 P3)) broadcasts_S64x1x80_S64x32x80 (ix3 s r o)
        * broadcastTo S64x32x80 (shapeCast S64x1x80 P4 shapeCasts_S64x80_S64x1x80) broadcasts_S64x1x80_S64x32x80 (ix3 s r o)
      + broadcastTo S64x32x80 (shapeCast S64x1x80 P5 shapeCasts_S64x80_S64x1x80) broadcasts_S64x1x80_S64x32x80 (ix3 s r o) = _
  rw [rep80, rep80, rep80, cast80, cast80, invstd_apply]
  simp only [centred_apply, act_apply]
  rfl

/-- The stored value at (s, r, o): the output mask's row, through the same two layout steps, times the above. -/
theorem point_apply (P0 : Vec Ideal S64x32x256 .f32) (P1 : Vec Ideal S64x256 .f32) (P2 : Vec Ideal S64x80x256 .f32)
    (P3 P4 P5 P6 : Vec Ideal S64x80 .f32) (s : Fin 64) (r : Fin 32) (o : Fin 80) :
    k0_pay1 (k0_pay2 P0 P1 P2 P3 P4 P5) P6 (ix3 s r o)
      = cell (fun r k => P0 (ix3 s r k)) (fun k => P1 (ix2 s k)) (fun o k => P2 (ix3 s o k)) (fun o => P3 (ix2 s o))
          (fun o => P4 (ix2 s o)) (fun o => P5 (ix2 s o)) (fun o => P6 (ix2 s o)) r o := by
  show k0_pay2 P0 P1 P2 P3 P4 P5 (ix3 s r o)
      * broadcastTo S64x32x80 (shapeCast S64x1x80 P6 shapeCasts_S64x80_S64x1x80) broadcasts_S64x1x80_S64x32x80 (ix3 s r o) = _
  rw [rep80, cast80, pay2_apply]
  rfl

end Cert.KernelIdeal.Block

end
-- ==== Proof.Blocks.lean ====
/-
  From the 32 grid points to the whole output array.

  Point `t` stages rows `64 t .. 64 t + 63` of every argument array (each window's block index is `t` on the subsystem
  axis and 0 on the others) and writes the same rows of the output. Its output block at (s, r, o) is `DCell.cell` of the
  staged slices, which are the arrays' slices at subsystem `64 t + s`: so the block is the block of `DCell.netArr` of the
  argument arrays. Subsystem `i` lies in the block of point `i / 64`, so the blocks cover the array, and after the run
  the output array is `DCell.netArr` of the arguments.
-/
import proofs.«165661_j36953898615444_1_alg».proof.Proof.Gen.KernelIdeal.Value
import proofs.«165661_j36953898615444_1_alg».proof.Proof.KernelCell
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.DCell
open Idealize.ShloMosaic.Pipeline (Dat)

variable (m : (ℓ : Loc nD τ sig) → Buf (Elt Ideal) ℓ) (ρ : Dev nD → PrngReg)

/-- Subsystem `s` of block `b` is subsystem `64 b + s` of the array. -/
def row (b : Nat) (hb : b < 32) (s : Fin 64) : Fin 2048 := ⟨b * 64 + s.val, by have := s.isLt; omega⟩

theorem hz3 : (![0, 0, 0] : Fin 3 → Nat) = fun _ => 0 := funext fun a => by fin_cases a <;> rfl
theorem hz2 : (![0, 0] : Fin 2 → Nat) = fun _ => 0 := funext fun a => by fin_cases a <;> rfl

/-- Every window's block index at point `t`: `t` along the subsystems, 0 elsewhere (decided over the 32 points). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 3) = t.val ∧ win0_7.index t (1 : Fin 3) = 0 ∧ win0_7.index t (2 : Fin 3) = 0) :=
  (by decide +kernel : ∀ t : Fin grid0.N, _)

theorem t_lt (t : Fin cfg0.N) : t.val < 32 := by have h := t.isLt; have hN : cfg0.N = 32 := N_0; omega

/-! ## The staged blocks are the arrays' rows -/

theorem blk0 (c : Dev nD) (t : Fin cfg0.N) (s : Fin 64) (r : Fin 32) (k : Fin 256) :
    iblk m c 0 t (ix3 s r k) = V m c main_arg0 (ix3 (row t.val (t_lt t) s) r k) := by
  obtain ⟨⟨e0, e1, e2⟩, -⟩ := idx_facts t
  show V m c main_arg0 (((cfg0.win 0).blk t).view.emb (ix3 s r k)) = _
  refine congrArg _ (funext fun a => Fin.ext ?_)
  match a with
  | ⟨0, _⟩ => show win0_0.index t (0 : Fin 3) * 64 + 1 * s.val = t.val * 64 + s.val; omega
  | ⟨1, _⟩ => show win0_0.index t (1 : Fin 3) * 32 + 1 * r.val = r.val; omega
  | ⟨2, _⟩ => show win0_0.index t (2 : Fin 3) * 256 + 1 * k.val = k.val; omega

theorem blk1 (c : Dev nD) (t : Fin cfg0.N) (s : Fin 64) (o : Fin 80) (k : Fin 256) :
    iblk m c 1 t (ix3 s o k) = V m c main_arg1 (ix3 (row t.val (t_lt t) s) o k) := by
  obtain ⟨-, ⟨e0, e1, e2⟩, -⟩ := idx_facts t
  show V m c main_arg1 (((cfg0.win 1).blk t).view.emb (ix3 s o k)) = _
  refine congrArg _ (funext fun a => Fin.ext ?_)
  match a with
  | ⟨0, _⟩ => show win0_1.index t (0 : Fin 3) * 64 + 1 * s.val = t.val * 64 + s.val; omega
  | ⟨1, _⟩ => show win0_1.index t (1 : Fin 3) * 80 + 1 * o.val = o.val; omega
  | ⟨2, _⟩ => show win0_1.index t (2 : Fin 3) * 256 + 1 * k.val = k.val; omega

theorem blk2 (c : Dev nD) (t : Fin cfg0.N) (s : Fin 64) (o : Fin 80) :
    iblk m c 2 t (ix2 s o) = V m c main_arg2 (ix2 (row t.val (t_lt t) s) o) := by
  obtain ⟨-, -, ⟨e0, e1⟩, -⟩ := idx_facts t
  show V m c main_arg2 (((cfg0.win 2).blk t).view.emb (ix2 s o)) = _
  refine congrArg _ (funext fun a => Fin.ext ?_)
  match a with
  | ⟨0, _⟩ => show win0_2.index t (0 : Fin 2) * 64 + 1 * s.val = t.val * 64 + s.val; omega
  | ⟨1, _⟩ => show win0_2.index t (1 : Fin 2) * 80 + 1 * o.val = o.val; omega

theorem blk3 (c : Dev nD) (t : Fin cfg0.N) (s : Fin 64) (o : Fin 80) :
    iblk m c 3 t (ix2 s o) = V m c main_arg3 (ix2 (row t.val (t_lt t) s) o) := by
  obtain ⟨-, -, -, ⟨e0, e1⟩, -⟩ := idx_facts t
  show V m c main_arg3 (((cfg0.win 3).blk t).view.emb (ix2 s o)) = _
  refine congrArg _ (funext fun a => Fin.ext ?_)
  match a with
  | ⟨0, _⟩ => show win0_3.index t (0 : Fin 2) * 64 + 1 * s.val = t.val * 64 + s.val; omega
  | ⟨1, _⟩ => show win0_3.index t (1 : Fin 2) * 80 + 1 * o.val = o.val; omega

theorem blk4 (c : Dev nD) (t : Fin cfg0.N) (s : Fin 64) (o : Fin 80) :
    iblk m c 4 t (ix2 s o) = V m c main_arg4 (ix2 (row t.val (t_lt t) s) o) := by
  obtain ⟨-, -, -, -, ⟨e0, e1⟩, -⟩ := idx_facts t
  show V m c main_arg4 (((cfg0.win 4).blk t).view.emb (ix2 s o)) = _
  refine congrArg _ (funext fun a => Fin.ext ?_)
  match a with
  | ⟨0, _⟩ => show win0_4.index t (0 : Fin 2) * 64 + 1 * s.val = t.val * 64 + s.val; omega
  | ⟨1, _⟩ => show win0_4.index t (1 : Fin 2) * 80 + 1 * o.val = o.val; omega

theorem blk5 (c : Dev nD) (t : Fin cfg0.N) (s : Fin 64) (k : Fin 256) :
    iblk m c 5 t (ix2 s k) = V m c main_arg5 (ix2 (row t.val (t_lt t) s) k) := by
  obtain ⟨-, -, -, -, -, ⟨e0, e1⟩, -⟩ := idx_facts t
  show V m c main_arg5 (((cfg0.win 5).blk t).view.emb (ix2 s k)) = _
  refine congrArg _ (funext fun a => Fin.ext ?_)
  match a with
  | ⟨0, _⟩ => show win0_5.index t (0 : Fin 2) * 64 + 1 * s.val = t.val * 64 + s.val; omega
  | ⟨1, _⟩ => show win0_5.index t (1 : Fin 2) * 256 + 1 * k.val = k.val; omega

theorem blk6 (c : Dev nD) (t : Fin cfg0.N) (s : Fin 64) (o : Fin 80) :
    iblk m c 6 t (ix2 s o) = V m c main_arg6 (ix2 (row t.val (t_lt t) s) o) := by
  obtain ⟨-, -, -, -, -, -, ⟨e0, e1⟩, -⟩ := idx_facts t
  show V m c main_arg6 (((cfg0.win 6).blk t).view.emb (ix2 s o)) = _
  refine congrArg _ (funext fun a => Fin.ext ?_)
  match a with
  | ⟨0, _⟩ => show win0_6.index t (0 : Fin 2) * 64 + 1 * s.val = t.val * 64 + s.val; omega
  | ⟨1, _⟩ => show win0_6.index t (1 : Fin 2) * 80 + 1 * o.val = o.val; omega

/-! ## One point's block -/

/-- Blocks that are rows `64 b ..` of the arrays give, at (s, r, o), the network's value at subsystem `64 b + s`. -/
theorem point_eq (X : S2048x32x256.Idx → EReal) (W : S2048x80x256.Idx → EReal) (B Ga Be : S2048x80.Idx → EReal)
    (IM : S2048x256.Idx → EReal) (OM : S2048x80.Idx → EReal)
    (x0 : Vec Ideal S64x32x256 .f32) (x1 : Vec Ideal S64x80x256 .f32) (x2 x3 x4 : Vec Ideal S64x80 .f32)
    (x5 : Vec Ideal S64x256 .f32) (x6 : Vec Ideal S64x80 .f32) (b : Nat) (hb : b < 32)
    (h0 : ∀ s r k, x0 (ix3 s r k) = X (ix3 (row b hb s) r k)) (h1 : ∀ s o k, x1 (ix3 s o k) = W (ix3 (row b hb s) o k))
    (h2 : ∀ s o, x2 (ix2 s o) = B (ix2 (row b hb s) o)) (h3 : ∀ s o, x3 (ix2 s o) = Ga (ix2 (row b hb s) o))
    (h4 : ∀ s o, x4 (ix2 s o) = Be (ix2 (row b hb s) o)) (h5 : ∀ s k, x5 (ix2 s k) = IM (ix2 (row b hb s) k))
    (h6 : ∀ s o, x6 (ix2 s o) = OM (ix2 (row b hb s) o)) (s : Fin 64) (r : Fin 32) (o : Fin 80) :
    k0_pay1 (k0_pay2 x0 x5 x1 x2 x3 x4) x6 (ix3 s r o) = netArr X W B Ga Be IM OM (ix3 (row b hb s) r o) := by
  rw [Cert.KernelIdeal.Block.point_apply, netArr_ix3]
  unfold net
  simp only [h0, h1, h2, h3, h4, h5, h6]

/-- WHAT POINT `t` WRITES BACK is block `t` of the network's value of the argument arrays. -/
theorem flushed_eq (c : Dev nD) (t : Fin cfg0.N) :
    (dats m 0 c).flushed 7 t = ((cfg0.win 7).blk t).view.read (Elt Ideal)
      (netArr (V m c main_arg0) (V m c main_arg1) (V m c main_arg2) (V m c main_arg3) (V m c main_arg4) (V m c main_arg5) (V m c main_arg6)) := by
  rw [Cert.KernelIdeal.Value.flushed7]
  unfold out0_7
  rw [View.canon_unit_zero hz3]
  simp only [View.ld_unit_zero (S := S64x32x256) hz3, View.ld_unit_zero (S := S64x80x256) hz3, View.ld_unit_zero (S := S64x80) hz2,
    View.ld_unit_zero (S := S64x256) hz2]
  obtain ⟨-, -, -, -, -, -, -, ⟨e0, e1, e2⟩⟩ := idx_facts t
  funext y
  show k0_pay1 (k0_pay2 (iblk m c 0 t) (iblk m c 5 t) (iblk m c 1 t) (iblk m c 2 t) (iblk m c 3 t) (iblk m c 4 t)) (iblk m c 6 t) y
    = netArr (V m c main_arg0) (V m c main_arg1) (V m c main_arg2) (V m c main_arg3) (V m c main_arg4) (V m c main_arg5) (V m c main_arg6)
        (((cfg0.win 7).blk t).view.emb y)
  have hy0 : (y 0).val < 64 := (y 0).isLt
  have hy1 : (y 1).val < 32 := (y 1).isLt
  have hy2 : (y 2).val < 80 := (y 2).isLt
  refine (congrArg (k0_pay1 (k0_pay2 (iblk m c 0 t) (iblk m c 5 t) (iblk m c 1 t) (iblk m c 2 t) (iblk m c 3 t) (iblk m c 4 t)) (iblk m c 6 t))
    (eq_ix3 y)).trans ?_
  refine (point_eq (V m c main_arg0) (V m c main_arg1) (V m c main_arg2) (V m c main_arg3) (V m c main_arg4) (V m c main_arg5) (V m c main_arg6)
    (iblk m c 0 t) (iblk m c 1 t) (iblk m c 2 t) (iblk m c 3 t) (iblk m c 4 t) (iblk m c 5 t) (iblk m c 6 t) t.val (t_lt t)
    (blk0 m c t) (blk1 m c t) (blk2 m c t) (blk3 m c t) (blk4 m c t) (blk5 m c t) (blk6 m c t) (y 0) (y 1) (y 2)).trans ?_
  refine congrArg _ (funext fun a => Fin.ext ?_)
  match a with
  | ⟨0, _⟩ => show t.val * 64 + (y 0).val = win0_7.index t (0 : Fin 3) * 64 + 1 * (y 0).val; omega
  | ⟨1, _⟩ => show (y 1).val = win0_7.index t (1 : Fin 3) * 32 + 1 * (y 1).val; omega
  | ⟨2, _⟩ => show (y 2).val = win0_7.index t (2 : Fin 3) * 80 + 1 * (y 2).val; omega

/-! ## The cover, and the array after the run -/

/-- An index of the output array is in point `t`'s block iff each coordinate is in the block's range on its axis. -/
theorem mem_blk (t : Fin cfg0.N) (i : S2048x32x80.Idx) :
    i ∈ ((cfg0.win 7).blk t).view.set ↔ ∀ a : Fin 3, win0_7.index t a * S64x32x80.size a ≤ (i a).val ∧ (i a).val < win0_7.index t a * S64x32x80.size a + S64x32x80.size a := by
  show i ∈ ((View.whole main_v0).slice (win0_7.rect t)).set ↔ _
  rw [View.set_slice_whole, Rect.mem_set_unit]
  exact Iff.rfl

/-- Subsystem `i` is written by point `i / 64`. -/
theorem covered (i : S2048x32x80.Idx) :
    ∃ t : Fin cfg0.N, (cfg0.win 7).flush t = true ∧ i ∈ ((cfg0.win 7).blk t).view.set := by
  have hi0 : (i 0).val < 2048 := (i 0).isLt
  have hi1 : (i 1).val < 32 := (i 1).isLt
  have hi2 : (i 2).val < 80 := (i 2).isLt
  have hN : cfg0.N = 32 := N_0
  have ht : (i 0).val / 64 < cfg0.N := by omega
  obtain ⟨-, -, -, -, -, -, -, ⟨e0, e1, e2⟩⟩ := idx_facts ⟨(i 0).val / 64, ht⟩
  refine ⟨⟨(i 0).val / 64, ht⟩, flush0_7 _, ?_⟩
  rw [mem_blk]
  intro a
  match a with
  | ⟨0, _⟩ =>
    show win0_7.index ⟨(i 0).val / 64, ht⟩ (0 : Fin 3) * 64 ≤ (i 0).val ∧ (i 0).val < win0_7.index ⟨(i 0).val / 64, ht⟩ (0 : Fin 3) * 64 + 64
    have e0' : win0_7.index ⟨(i 0).val / 64, ht⟩ (0 : Fin 3) = (i 0).val / 64 := e0
    omega
  | ⟨1, _⟩ =>
    show win0_7.index ⟨(i 0).val / 64, ht⟩ (1 : Fin 3) * 32 ≤ (i 1).val ∧ (i 1).val < win0_7.index ⟨(i 0).val / 64, ht⟩ (1 : Fin 3) * 32 + 32
    omega
  | ⟨2, _⟩ =>
    show win0_7.index ⟨(i 0).val / 64, ht⟩ (2 : Fin 3) * 80 ≤ (i 2).val ∧ (i 2).val < win0_7.index ⟨(i 0).val / 64, ht⟩ (2 : Fin 3) * 80 + 80
    omega

/-- THE ARRAY after the run is the network's value of the argument arrays as launched. -/
theorem final (c : Dev nD) :
    (dats m 0 c).arrAt 7 cfg0.N
      = netArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  (dats m 0 c).arrAt_eq_of_cover 7 _ (fun t _ => flushed_eq m c t) covered

/-- The run, with the output array named as that value and the arguments unchanged. -/
theorem run : θ_run defs (onTc (τ := τ) (main (F := Ideal))) ⟨m, fun _ => 0, ρ⟩ fun r => ∀ c : Dev nD,
      r.2.mem ((c : Thread nD τ).loc main_v0)
        = netArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.RefCell.lean ====
/-
  The reference's result, read at an index.

  The reference applies the same chain to the whole arrays at once: the input times the input mask (the mask row repeated
  over the batch rows), one batched contraction with the weights over the 256 features, the bias row, tanh, then the
  batch mean and the biased batch variance as sums over the middle axis divided by 32, the reciprocal square root of
  variance plus the offset, scale, shift and the output mask. Each stage is read at (s, r, o), or at (s, 0, o) for the
  per-feature statistics, from the stage before it; the result is `DCell.net` at (s, r, o).
-/
import proofs.«165661_j36953898615444_1_alg».proof.Proof.Gen.ReferenceIdeal.Read
import proofs.«165661_j36953898615444_1_alg».proof.Proof.Cell
import Idealize.ShloMosaic.Lib.ValueIdx
import Idealize.ShloMosaic.PureOps.Ideal.Laws

noncomputable section

namespace Cert.ReferenceIdeal.Whole

open Cert.ReferenceIdeal Cert.ReferenceIdeal.Read Idealize.ShloMosaic Idealize.ShloMosaic.TcCoe Idealize.ShloMosaic.ValueIdx Cert.DCell

variable (x0 : (⟨S2048x32x256, .f32⟩ : BufTy).Contents (Elt Ideal)) (x1 : (⟨S2048x80x256, .f32⟩ : BufTy).Contents (Elt Ideal))
  (x2 x3 x4 : (⟨S2048x80, .f32⟩ : BufTy).Contents (Elt Ideal)) (x5 : (⟨S2048x256, .f32⟩ : BufTy).Contents (Elt Ideal))
  (x6 : (⟨S2048x80, .f32⟩ : BufTy).Contents (Elt Ideal))

/-! ## Where each layout step reads -/

/-- A row vector of length 80 placed at [2048, 1, 80] reads its (s, o). -/
theorem at_row (s : Fin 2048) (z : Fin 1) (o : Fin 80) : idx_main_v4 (ix3 s z o) = ix2 s o :=
  funext fun a => Fin.ext (by match a with | ⟨0, _⟩ => rfl | ⟨1, _⟩ => rfl)

/-- Repeated over the 32 rows it reads (s, 0, o). -/
theorem at_rep (s : Fin 2048) (r : Fin 32) (o : Fin 80) : idx_main_v5 (ix3 s r o) = ix3 s (0 : Fin 1) o :=
  funext fun a => Fin.ext (by match a with | ⟨0, _⟩ => rfl | ⟨1, _⟩ => rfl | ⟨2, _⟩ => rfl)

/-- The same for the mask over the 256 features. -/
theorem at_row256 (s : Fin 2048) (z : Fin 1) (k : Fin 256) : idx_main_v0 (ix3 s z k) = ix2 s k :=
  funext fun a => Fin.ext (by match a with | ⟨0, _⟩ => rfl | ⟨1, _⟩ => rfl)

theorem at_rep256 (s : Fin 2048) (r : Fin 32) (k : Fin 256) : idx_main_v1 (ix3 s r k) = ix3 s (0 : Fin 1) k :=
  funext fun a => Fin.ext (by match a with | ⟨0, _⟩ => rfl | ⟨1, _⟩ => rfl | ⟨2, _⟩ => rfl)

/-- The contraction at (s, r, o) pairs (s, r, k) on the left with (s, o, k) on the right. -/
theorem at_lhs (s : Fin 2048) (r : Fin 32) (o : Fin 80) (k : Fin 256) : lidx_main_v3 (ix3 s r o) k = ix3 s r k :=
  funext fun a => Fin.ext (by match a with | ⟨0, _⟩ => rfl | ⟨1, _⟩ => rfl | ⟨2, _⟩ => rfl)

theorem at_rhs (s : Fin 2048) (r : Fin 32) (o : Fin 80) (k : Fin 256) : ridx_main_v3 (ix3 s r o) k = ix3 s o k :=
  funext fun a => Fin.ext (by match a with | ⟨0, _⟩ => rfl | ⟨1, _⟩ => rfl | ⟨2, _⟩ => rfl)

/-- The sum over the batch rows at (s, o) runs over the entries (s, r, o). -/
theorem at_sum (s : Fin 2048) (o : Fin 80) (r : Fin 32) : idx_main_v8 (ix2 s o) r = ix3 s r o :=
  funext fun a => Fin.ext (by match a with | ⟨0, _⟩ => rfl | ⟨1, _⟩ => rfl | ⟨2, _⟩ => rfl)

/-! ## The stages -/

/-- The masked input. -/
theorem masked_apply (s : Fin 2048) (r : Fin 32) (k : Fin 256) :
    val_main_v2 (F := Ideal) x0 x5 (ix3 s r k) = x0 (ix3 s r k) * x5 (ix2 s k) := by
  rw [val_main_v2_apply, val_main_v1_apply, val_main_v0_apply, at_rep256, at_row256]
  rfl

/-- The activation. -/
theorem act_apply (s : Fin 2048) (r : Fin 32) (o : Fin 80) :
    val_main_v7 (F := Ideal) x0 x1 x2 x5 (ix3 s r o)
      = hid (fun r k => x0 (ix3 s r k)) (fun k => x5 (ix2 s k)) (fun o k => x1 (ix3 s o k)) (fun o => x2 (ix2 s o)) r o := by
  rw [val_main_v7_apply, val_main_v6_apply, val_main_v3_apply, val_main_v5_apply, val_main_v4_apply, at_rep, at_row]
  show Ideal.tanh ((∑ k : Fin 256, val_main_v2 (F := Ideal) x0 x5 (lidx_main_v3 (ix3 s r o) k) * x1 (ridx_main_v3 (ix3 s r o) k)) + x2 (ix2 s o))
    = Ideal.tanh ((∑ k : Fin 256, x0 (ix3 s r k) * x5 (ix2 s k) * x1 (ix3 s o k)) + x2 (ix2 s o))
  refine congrArg (fun z => Ideal.tanh (z + x2 (ix2 s o))) (Finset.sum_congr rfl fun k _ => ?_)
  rw [at_lhs, at_rhs, masked_apply]

/-- The batch mean, kept at (s, 0, o). -/
theorem mean_apply (s : Fin 2048) (o : Fin 80) :
    val_main_v11 (F := Ideal) x0 x1 x2 x5 (ix3 s (0 : Fin 1) o)
      = Ideal.div (∑ r : Fin 32, val_main_v7 (F := Ideal) x0 x1 x2 x5 (ix3 s r o)) batch := by
  rw [val_main_v11_apply, val_main_v9_apply, val_main_v8_apply, val_main_v10_apply]
  show Ideal.div (Ideal.ofBits .f32 0x00000000#32 + ∑ r : Fin 32, val_main_v7 (F := Ideal) x0 x1 x2 x5 (idx_main_v8 (idx_main_v9 (ix3 s (0 : Fin 1) o)) r)) batch = _
  rw [Ideal.ofBits_zero_f32, zero_add]
  refine congrArg (fun z => Ideal.div z batch) (Finset.sum_congr rfl fun r _ => ?_)
  exact congrArg _ ((congrArg (fun j => idx_main_v8 j r) (at_row s (0 : Fin 1) o)).trans (at_sum s o r))

/-- The deviation from the batch mean (the reference computes it twice, for the variance and for the result). -/
theorem dev_apply (s : Fin 2048) (r : Fin 32) (o : Fin 80) :
    val_main_v13 (F := Ideal) x0 x1 x2 x5 (ix3 s r o)
      = val_main_v7 (F := Ideal) x0 x1 x2 x5 (ix3 s r o) - Ideal.div (∑ r : Fin 32, val_main_v7 (F := Ideal) x0 x1 x2 x5 (ix3 s r o)) batch := by
  rw [val_main_v13_apply, val_main_v12_apply]
  show val_main_v7 (F := Ideal) x0 x1 x2 x5 (ix3 s r o) - val_main_v11 (F := Ideal) x0 x1 x2 x5 (idx_main_v5 (ix3 s r o)) = _
  rw [at_rep, mean_apply]

theorem dev_apply' (s : Fin 2048) (r : Fin 32) (o : Fin 80) :
    val_main_v20 (F := Ideal) x0 x1 x2 x5 (ix3 s r o)
      = val_main_v7 (F := Ideal) x0 x1 x2 x5 (ix3 s r o) - Ideal.div (∑ r : Fin 32, val_main_v7 (F := Ideal) x0 x1 x2 x5 (ix3 s r o)) batch := by
  rw [val_main_v20_apply, val_main_v19_apply]
  show val_main_v7 (F := Ideal) x0 x1 x2 x5 (ix3 s r o) - val_main_v11 (F := Ideal) x0 x1 x2 x5 (idx_main_v5 (ix3 s r o)) = _
  rw [at_rep, mean_apply]

/-- The biased batch variance, kept at (s, 0, o). -/
theorem var_apply (s : Fin 2048) (o : Fin 80) :
    val_main_v18 (F := Ideal) x0 x1 x2 x5 (ix3 s (0 : Fin 1) o)
      = Ideal.div (∑ r : Fin 32, val_main_v13 (F := Ideal) x0 x1 x2 x5 (ix3 s r o) * val_main_v13 (F := Ideal) x0 x1 x2 x5 (ix3 s r o)) batch := by
  rw [val_main_v18_apply, val_main_v16_apply, val_main_v15_apply, val_main_v17_apply]
  show Ideal.div (Ideal.ofBits .f32 0x00000000#32 + ∑ r : Fin 32, val_main_v14 (F := Ideal) x0 x1 x2 x5 (idx_main_v8 (idx_main_v4 (ix3 s (0 : Fin 1) o)) r)) batch = _
  rw [Ideal.ofBits_zero_f32, zero_add]
  refine congrArg (fun z => Ideal.div z batch) (Finset.sum_congr rfl fun r _ => ?_)
  rw [at_row, at_sum, val_main_v14_apply]
  rfl

/-- The result at (s, r, o). -/
theorem result_apply (s : Fin 2048) (r : Fin 32) (o : Fin 80) :
    val_main_v34 (F := Ideal) x0 x1 x2 x3 x4 x5 x6 (ix3 s r o) = net x0 x1 x2 x3 x4 x5 x6 s r o := by
  rw [val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply]
  show (val_main_v20 (F := Ideal) x0 x1 x2 x5 (ix3 s r o)
          * Ideal.rsqrt (val_main_v18 (F := Ideal) x0 x1 x2 x5 (idx_main_v5 (ix3 s r o)) + eps)
          * x3 (idx_main_v4 (idx_main_v5 (ix3 s r o))) + x4 (idx_main_v4 (idx_main_v5 (ix3 s r o))))
        * x6 (idx_main_v4 (idx_main_v5 (ix3 s r o))) = _
  rw [at_rep, at_row, var_apply, dev_apply']
  simp only [dev_apply, act_apply]
  rfl

/-- The reference's result array is `DCell.netArr` of its arguments. -/
theorem result_eq : val_main_v34 (F := Ideal) x0 x1 x2 x3 x4 x5 x6 = netArr x0 x1 x2 x3 x4 x5 x6 := by
  funext j
  obtain ⟨s, r, o, rfl⟩ : ∃ (s : Fin 2048) (r : Fin 32) (o : Fin 80), j = ix3 s r o := ⟨j 0, j 1, j 2, eq_ix3 j⟩
  exact result_apply x0 x1 x2 x3 x4 x5 x6 s r o

end Cert.ReferenceIdeal.Whole

end
-- ==== Proof.lean ====
/-
  Per-subsystem masked linear layer, tanh and batch normalisation: the kernel against its array-at-once reference.

  2048 subsystems each own a batch of 32 input rows of 256 features, an input mask, an 80 × 256 weight matrix, a bias, a
  batch-norm scale and shift and an output mask. The kernel walks the subsystems 64 at a time (32 grid points); the
  reference treats all of them at once. Both compute, for subsystem `s`, batch row `r` and output feature `o`,

      ( (h - mean) * rsqrt (var + eps) * scale + shift ) * out_mask,   h = tanh (sum_k (x * in_mask) * W + bias),

  with the mean and the biased variance taken over the 32 batch rows as a sum divided by 32, in the same order of
  operations and with the same two constants (32 and the f32 nearest 1e-5), so at the exact extended reals the two results
  are one function of the arguments (`DCell.netArr`, Proof/Cell.lean) and no algebraic law is needed to join them: the
  kernel's narrowing of the matrix operands to bf16 is the identity there, its matrix product into a zero accumulator and
  the reference's contraction are the same sum over the 256 features, and its lane reduction and the reference's reduce are
  the same sum over the 32 rows. The precondition is not used.

  Proof/KernelCell.lean reads one grid point's output block at an index; Proof/Blocks.lean carries the 32 blocks to the
  whole output array over the kernel's frame run; Proof/RefCell.lean reads the reference's result at an index. The three
  frames are the two kernels' frame runs and the reference's run with its result dropped; the idealisation rewrote
  nothing, so the fourth conjunct is `True`.
-/
import proofs.«165661_j36953898615444_1_alg».proof.Defs
import proofs.«165661_j36953898615444_1_alg».proof.Proof.Gen.Kernel
import proofs.«165661_j36953898615444_1_alg».proof.Proof.Gen.Kernel.Skeleton
import proofs.«165661_j36953898615444_1_alg».proof.Proof.Gen.Kernel.Launch
import proofs.«165661_j36953898615444_1_alg».proof.Proof.Gen.Kernel.Points
import proofs.«165661_j36953898615444_1_alg».proof.Proof.Gen.Kernel.Frame
import proofs.«165661_j36953898615444_1_alg».proof.Proof.Gen.KernelIdeal
import proofs.«165661_j36953898615444_1_alg».proof.Proof.Gen.KernelIdeal.Skeleton
import proofs.«165661_j36953898615444_1_alg».proof.Proof.Gen.KernelIdeal.Launch
import proofs.«165661_j36953898615444_1_alg».proof.Proof.Gen.KernelIdeal.Points
import proofs.«165661_j36953898615444_1_alg».proof.Proof.Gen.KernelIdeal.Frame
import proofs.«165661_j36953898615444_1_alg».proof.Proof.Gen.ReferenceIdeal
import proofs.«165661_j36953898615444_1_alg».proof.Proof.Gen.Pre_finite_inputs
import proofs.«165661_j36953898615444_1_alg».proof.Proof.Gen.KernelIdeal.Value
import proofs.«165661_j36953898615444_1_alg».proof.Proof.Gen.ReferenceIdeal.Run
import proofs.«165661_j36953898615444_1_alg».proof.Proof.Gen.ReferenceIdeal.Read
import proofs.«165661_j36953898615444_1_alg».proof.Proof.Cell
import proofs.«165661_j36953898615444_1_alg».proof.Proof.KernelCell
import proofs.«165661_j36953898615444_1_alg».proof.Proof.Blocks
import proofs.«165661_j36953898615444_1_alg».proof.Proof.RefCell
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments the kernel's output array and the reference's result are both the
    network's value of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.Whole.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
